-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000x32 : Shape := ⟨2, ![1600000, 32]⟩
abbrev S1x32 : Shape := ⟨2, ![1, 32]⟩
abbrev S96x32 : Shape := ⟨2, ![96, 32]⟩
abbrev S32 : Shape := ⟨1, ![32]⟩
abbrev S32x32 : Shape := ⟨2, ![32, 32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S1x32 : S_.BroadcastsInDim S1x32 (![] : Fin 0 → Fin S1x32.rank)
  reducesTo_S1x32_S_d0_1 : S1x32.ReducesTo [0, 1] S_
  bcast_S_S96x32 : S_.BroadcastsInDim S96x32 (![] : Fin 0 → Fin S96x32.rank)
  reducesTo_S96x32_S_d0_1 : S96x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg5 : FVec F S32 .f32) (main_arg6 : FVec F S32x32 .f32) (main_arg7 : FVec F S32 .f32) (main_v13 : IVec S_ 1) (main_v16 : IVec S96x32 1) : IVec S_ 1 :=
  let main_c_5 : IVec S_ 1 := constantI S_ 1 1#1
  let main_v17 : IVec S_ 1 := (fun x v => Host.reduce IntOp.andi x v reducesTo_S96x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x32 .f32) (main_arg1 : IVec S2x1600000 32) (main_arg2 : FVec F S1600000x32 .f32) (main_arg3 : FVec F S1x32 .f32) (main_arg4 : FVec F S96x32 .f32) (main_arg5 : FVec F S32 .f32) (main_arg6 : FVec F S32x32 .f32) (main_arg7 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S1x32 .f32 := Host.absf main_arg3
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S96x32 .f32 := Host.absf main_arg4
  let main_cst_4 : FVec F S_ .f32 := constant S_ .f32 0x7F800000#32
  let main_v15 : FVec F S96x32 .f32 := broadcastInDim S96x32 ![] bcast_S_S96x32 main_cst_4
  let main_v16 : IVec S96x32 1 := cmpf .olt main_v14 main_v15
  fn_part1 (F := F) main_arg5 main_arg6 main_arg7 main_v13 main_v16
-- ==== Kernel.lean ====
abbrev S100000x32 : Shape := ⟨2, ![100000, 32]⟩
abbrev S2x1600000 : Shape := ⟨2, ![2, 1600000]⟩
abbrev S1600000x32 : Shape := ⟨2, ![1600000, 32]⟩
abbrev S1x32 : Shape := ⟨2, ![1, 32]⟩
abbrev S96x32 : Shape := ⟨2, ![96, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S10000x32 : Shape := ⟨2, ![10000, 32]⟩

abbrev nBuf : Space → Nat
  | .hbm => 20
  | .vmem => 13
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x32, .f32⟩
  | .hbm, ⟨3, _⟩ => ⟨S1x32, .f32⟩
  | .hbm, ⟨4, _⟩ => ⟨S96x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000x32, .f32⟩
  | .hbm, ⟨12, _⟩ => ⟨S1600000x1, .i32⟩
  | .hbm, ⟨13, _⟩ => ⟨S100000x32, .f32⟩
  | .hbm, ⟨14, _⟩ => ⟨S32x32, .f32⟩
  | .hbm, ⟨15, _⟩ => ⟨S32x32, .f32⟩
  | .hbm, ⟨16, _⟩ => ⟨S32x32, .f32⟩
  | .hbm, ⟨17, _⟩ => ⟨S1x32, .f32⟩
  | .hbm, ⟨18, _⟩ => ⟨S1x32, .f32⟩
  | .hbm, ⟨19, _⟩ => ⟨S100000x32, .f32⟩
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S1x32, .f32⟩
  | .local _ .vmem, ⟨5, _⟩ => ⟨S32x32, .f32⟩
  | .local _ .vmem, ⟨6, _⟩ => ⟨S32x32, .f32⟩
  | .local _ .vmem, ⟨7, _⟩ => ⟨S32x32, .f32⟩
  | .local _ .vmem, ⟨8, _⟩ => ⟨S1x32, .f32⟩
  | .local _ .vmem, ⟨9, _⟩ => ⟨S32x32, .f32⟩
  | .local _ .vmem, ⟨10, _⟩ => ⟨S1x32, .f32⟩
  | .local _ .vmem, ⟨11, _⟩ => ⟨S10000x32, .f32⟩
  | .local _ .vmem, ⟨12, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S100000x32 : S_.BroadcastsInDim S100000x32 (![] : Fin 0 → Fin S100000x32.rank)
  bcast_S1600000_S1600000x1_0 : S1600000.BroadcastsInDim S1600000x1 (![0] : Fin 1 → Fin S1600000x1.rank)
  slices_S96x32_S32x32_0_0 : S96x32.Slices ![0, 0] S32x32
  slices_S96x32_S32x32_32_0 : S96x32.Slices ![32, 0] S32x32
  slices_S96x32_S32x32_64_0 : S96x32.Slices ![64, 0] S32x32
  shapeCasts_S32_S1x32 : S32.ShapeCasts S1x32
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  scatter_S100000x32_S1600000x1_S1600000x32_1_0_0_1_wf : ScatterDims.WF S100000x32 S1600000x1 S1600000x32 [1] [0] [0] 1
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x32.size a ≤ S100000x32.size a
  hwx0_9 : ∀ i : grid0.Coords, EltTy.bits .f32 = 32 ∨ (Rect.block (s := S100000x32) S10000x32.size (cc0_transform_9 i) (hinb0_9 i)).WholeWords (EltTy.packing .f32)

variable [Facts₀]

def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S10000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000x32 : Shape := ⟨2, ![1600000, 32]⟩
abbrev S1x32 : Shape := ⟨2, ![1, 32]⟩
abbrev S96x32 : Shape := ⟨2, ![96, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x96 : Shape := ⟨2, ![100000, 96]⟩

abbrev nBuf : Space → Nat
  | .hbm => 27
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x32, .f32⟩
  | .hbm, ⟨3, _⟩ => ⟨S1x32, .f32⟩
  | .hbm, ⟨4, _⟩ => ⟨S96x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000x32, .f32⟩
  | .hbm, ⟨12, _⟩ => ⟨S1600000x1, .i32⟩
  | .hbm, ⟨13, _⟩ => ⟨S100000x32, .f32⟩
  | .hbm, ⟨14, _⟩ => ⟨S100000x32, .f32⟩
  | .hbm, ⟨15, _⟩ => ⟨S100000x96, .f32⟩
  | .hbm, ⟨16, _⟩ => ⟨S100000x32, .f32⟩
  | .hbm, ⟨17, _⟩ => ⟨S1x32, .f32⟩
  | .hbm, ⟨18, _⟩ => ⟨S100000x32, .f32⟩
  | .hbm, ⟨19, _⟩ => ⟨S100000x32, .f32⟩
  | .hbm, ⟨20, _⟩ => ⟨S_, .f32⟩
  | .hbm, ⟨21, _⟩ => ⟨S100000x32, .f32⟩
  | .hbm, ⟨22, _⟩ => ⟨S100000x32, .f32⟩
  | .hbm, ⟨23, _⟩ => ⟨S100000x32, .f32⟩
  | .hbm, ⟨24, _⟩ => ⟨S1x32, .f32⟩
  | .hbm, ⟨25, _⟩ => ⟨S100000x32, .f32⟩
  | .hbm, ⟨26, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S100000x32 : S_.BroadcastsInDim S100000x32 (![] : Fin 0 → Fin S100000x32.rank)
  bcast_S1600000_S1600000x1_0 : S1600000.BroadcastsInDim S1600000x1 (![0] : Fin 1 → Fin S1600000x1.rank)
  bcast_S1x32_S100000x32_0_1 : S1x32.BroadcastsInDim S100000x32 (![0, 1] : Fin 2 → Fin S100000x32.rank)
  concatenates_S100000x32_S100000x32_S100000x32_S100000x96_d1 : Shape.Concatenates [S100000x32, S100000x32, S100000x32] S100000x96 1
  bcast_S32_S1x32_1 : S32.BroadcastsInDim S1x32 (![1] : Fin 1 → Fin S1x32.rank)
  scatter_S100000x32_S1600000x1_S1600000x32_1_0_0_1_wf : ScatterDims.WF S100000x32 S1600000x1 S1600000x32 [1] [0] [0] 1
  dot_S100000x96_S96x32_S100000x32_1_0_0_1_n_n_wf : DotDims.WF S100000x96 S96x32 S100000x32 [1] [0] [0] [1] [] []
  dot_S100000x32_S32x32_S100000x32_1_0_0_1_n_n_wf : DotDims.WF S100000x32 S32x32 S100000x32 [1] [0] [0] [1] [] []

variable [Facts₀]

def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x96_S96x32_S100000x32_1_0_0_1_n_n : DotDims S100000x96 S96x32 S100000x32 where
  lhsContracting := [1]
  rhsContracting := [0]
  lhsNonContracting := [0]
  rhsNonContracting := [1]
  lhsBatch := []
  rhsBatch := []
  wf := dot_S100000x96_S96x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.Spec.lean ====
/-
  The node update of a message-passing layer, as ONE function of its arrays.

  For node `n` the layer concatenates three 32-wide feature rows — the node's own features `x n`, the sum `a n` of
  the features of the edges it receives, and the global features `g` — into a 96-wide row, applies a 96 × 32 linear
  map `W1` and a bias `b1`, clips at zero, and applies a 32 × 32 linear map `W2` and a bias `b2`:

    hidden n h = max (∑ k<96, [x n | a n | g] k · W1 k h + b1 h) 0
    output n j = ∑ h<32, hidden n h · W2 h j + b2 j.

  A 96-term sum against the concatenated row is the sum of three 32-term sums, one per block of rows of `W1`
  (`sum96_split`): addition of extended reals is commutative and associative, and that is all the regrouping uses, so no
  finiteness is needed. `hidden` is written in the three-block form.
-/
import Idealize.ShloMosaic.PureOps.Ideal
import Idealize.ShloMosaic.PureOps.Ideal.Laws
import Idealize.ShloMosaic.Lib.ValueIdx

noncomputable section

namespace Cert.NodeUpdate

open Idealize.ShloMosaic Idealize.ShloMosaic.ValueIdx

/-- A matrix of extended reals, indexed by the rank-2 shape `[r, c]`. -/
abbrev Mat (r c : Nat) : Type := (⟨2, ![r, c]⟩ : Shape).Idx → EReal
/-- A vector of extended reals, indexed by the rank-1 shape `[n]`. -/
abbrev Row (n : Nat) : Type := (⟨1, ![n]⟩ : Shape).Idx → EReal

/-- One block of the first layer's contraction: a 32-wide feature row against rows `o, …, o + 31` of the 96-row
    weight matrix, at hidden unit `h`. -/
def blockDot (row : Fin 32 → EReal) (W1 : Mat 96 32) (o : Nat) (ho : o + 32 ≤ 96) (h : Fin 32) : EReal :=
  ∑ k : Fin 32, row k * W1 (ix2 ⟨o + k.val, by have := k.isLt; omega⟩ h)

/-- Hidden unit `h` of node `n`: the three blocks' sums (own features against rows 0–31 of `W1`, received-edge sum
    against rows 32–63, global features against rows 64–95), the bias, clipped at zero. -/
def hidden (x a : Mat 100000 32) (g : Mat 1 32) (W1 : Mat 96 32) (b1 : Row 32) (n : Fin 100000) (h : Fin 32) : EReal :=
  max (blockDot (fun k => x (ix2 n k)) W1 0 (by omega) h + blockDot (fun k => a (ix2 n k)) W1 32 (by omega) h
        + blockDot (fun k => g (ix2 0 k)) W1 64 (by omega) h + b1 (ix1 h)) 0

/-- The layer's result: `∑ h, hidden n h · W2 h j + b2 j` at row `n`, column `j`. -/
def output (x a : Mat 100000 32) (g : Mat 1 32) (W1 : Mat 96 32) (b1 : Row 32) (W2 : Mat 32 32) (b2 : Row 32) :
    Mat 100000 32 := fun j =>
  (∑ h : Fin 32, hidden x a g W1 b1 (j 0) h * W2 (ix2 h (j 1))) + b2 (ix1 (j 1))

/-- The result at row `n`, column `q`. -/
theorem output_apply (x a : Mat 100000 32) (g : Mat 1 32) (W1 : Mat 96 32) (b1 : Row 32) (W2 : Mat 32 32) (b2 : Row 32)
    (n : Fin 100000) (q : Fin 32) :
    output x a g W1 b1 W2 b2 (ix2 n q) = (∑ h : Fin 32, hidden x a g W1 b1 n h * W2 (ix2 h q)) + b2 (ix1 q) := rfl

/-- The all-zero 32-bit float word is the extended real `0`. -/
theorem zero_word : (FloatOps.ofBits (F := Ideal) .f32 0x00000000#32 : EReal) = 0 := Ideal.ofBits_zero_f32

/-- A sum over 96 indices is the sum of the sums over its three consecutive runs of 32 — in any commutative monoid. -/
theorem sum96_split {M : Type*} [AddCommMonoid M] (f : Fin 96 → M) :
    ∑ k : Fin 96, f k = (∑ k : Fin 32, f ⟨0 + k.val, by have := k.isLt; omega⟩)
      + (∑ k : Fin 32, f ⟨32 + k.val, by have := k.isLt; omega⟩)
      + ∑ k : Fin 32, f ⟨64 + k.val, by have := k.isLt; omega⟩ := by
  have h1 : ∑ k : Fin 96, f k = (∑ i : Fin 64, f (Fin.castAdd 32 i)) + ∑ i : Fin 32, f (Fin.natAdd 64 i) :=
    Fin.sum_univ_add (a := 64) (b := 32) f
  have h2 : (∑ i : Fin 64, f (Fin.castAdd 32 i))
      = (∑ i : Fin 32, f (Fin.castAdd 32 (Fin.castAdd 32 i))) + ∑ i : Fin 32, f (Fin.castAdd 32 (Fin.natAdd 32 i)) :=
    Fin.sum_univ_add (a := 32) (b := 32) fun i => f (Fin.castAdd 32 i)
  rw [h1, h2]
  refine congrArg₂ (· + ·) (congrArg₂ (· + ·) ?_ ?_) ?_
  · exact Finset.sum_congr rfl fun k _ => congrArg f (Fin.ext (by simp <;> omega))
  · exact Finset.sum_congr rfl fun k _ => congrArg f (Fin.ext (by simp <;> omega))
  · exact Finset.sum_congr rfl fun k _ => congrArg f (Fin.ext (by simp <;> omega))

end Cert.NodeUpdate

end
-- ==== Proof.KernelBlock.lean ====
/-
  What one grid step leaves in its output block, at an index.

  The body of the kernel, read at the extended reals, takes a block of 10000 node rows `P0`, the matching block `P1` of
  received-edge sums, the global row `P2`, three 32 × 32 weight blocks `P3 P4 P5`, a bias row `P6`, a second 32 × 32 weight
  `P7` and a bias row `P8`, and stores, at row `p` and column `q` of the block,

    ∑ h<32, max (∑ k P0 p k · P3 k h + ∑ k P1 p k · P4 k h + ∑ k P2 0 k · P5 k h + P6 0 h) 0 · P7 h q + P8 0 q.

  Each matrix product into a zero accumulator is the plain sum over the contracted coordinate (`blockMatmul_apply`);
  the changes of float format in between are the identity on extended reals.
-/
import proofs.«164282_j21852793602131_1_alg».proof.Proof.Gen.KernelIdeal.Value
import proofs.«164282_j21852793602131_1_alg».proof.Proof.Spec
import Idealize.ShloMosaic.Lib.ValueLayout
import Idealize.ShloMosaic.Lib.Pipeline.Value

noncomputable section

namespace Cert.KernelIdeal.BlockValue

open Cert.KernelIdeal Cert.KernelIdeal.Gen Idealize.ShloMosaic Idealize.ShloMosaic.ValueIdx

/-! ## A 10000 × 32 by 32 × 32 product at an index -/

theorem lhs_blk_0 (i : S10000x32.Idx) (q : dot_S10000x32_S32x32_S10000x32_1_0_0_1_n_n.contr.Idx) :
    (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem lhs_blk_1 (i : S10000x32.Idx) (q : dot_S10000x32_S32x32_S10000x32_1_0_0_1_n_n.contr.Idx) :
    (dot_S10000x32_S32x32_S10000x32_1_0_0_1_n_n.lhsIdx i q 1).val = (q ⟨0, by decide⟩).val :=
  dot_S10000x32_S32x32_S10000x32_1_0_0_1_n_n.lhsIdx_val_of_single rfl i q
theorem rhs_blk_0 (i : S10000x32.Idx) (q : dot_S10000x32_S32x32_S10000x32_1_0_0_1_n_n.contr.Idx) :
    (dot_S10000x32_S32x32_S10000x32_1_0_0_1_n_n.rhsIdx i q 0).val = (q ⟨0, by decide⟩).val :=
  dot_S10000x32_S32x32_S10000x32_1_0_0_1_n_n.rhsIdx_val_of_single rfl i q
theorem rhs_blk_1 (i : S10000x32.Idx) (q : dot_S10000x32_S32x32_S10000x32_1_0_0_1_n_n.contr.Idx) :
    (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- The block product into the zero accumulator, at row `p` and column `q`: the sum over the 32 contracted
    coordinates of left entry `(p, k)` times right entry `(k, q)`. -/
theorem blockMatmul_apply {φ₁ φ₂ : FTy} (L : FVec Ideal S10000x32 φ₁) (R : FVec Ideal S32x32 φ₂) (p : Fin 10000) (q : Fin 32) :
    matmul dot_S10000x32_S32x32_S10000x32_1_0_0_1_n_n none L R (constant S10000x32 .f32 0x00000000#32) (ix2 p q)
      = ∑ k : Fin 32, L (ix2 p k) * R (ix2 k q) := by
  simp only [matmul]
  rw [Ideal.matmul_constant_zero_apply, ← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have el : dot_S10000x32_S32x32_S10000x32_1_0_0_1_n_n.lhsIdx (ix2 p q) ((contrEquiv1 dot_S10000x32_S32x32_S10000x32_1_0_0_1_n_n 32 rfl rfl).symm k) = ix2 p k := funext fun a => Fin.ext (by
    match a with
    | ⟨0, _⟩ => exact lhs_blk_0 _ _
    | ⟨1, _⟩ => exact (lhs_blk_1 _ _).trans hk)
  have er : dot_S10000x32_S32x32_S10000x32_1_0_0_1_n_n.rhsIdx (ix2 p q) ((contrEquiv1 dot_S10000x32_S32x32_S10000x32_1_0_0_1_n_n 32 rfl rfl).symm k) = ix2 k q := funext fun a => Fin.ext (by
    match a with
    | ⟨0, _⟩ => exact (rhs_blk_0 _ _).trans hk
    | ⟨1, _⟩ => exact rhs_blk_1 _ _)
  rw [el, er]

/-! ## The body's value at an index -/

/-- Hidden unit `h` of the block's row `p`, from the loaded blocks. -/
def blockHidden (P0 P1 : Vec Ideal S10000x32 .f32) (P2 : Vec Ideal S1x32 .f32) (P3 P4 P5 : Vec Ideal S32x32 .f32)
    (P6 : Vec Ideal S1x32 .f32) (p : Fin 10000) (h : Fin 32) : EReal :=
  max ((∑ k : Fin 32, P0 (ix2 p k) * P3 (ix2 k h)) + (∑ k : Fin 32, P1 (ix2 p k) * P4 (ix2 k h))
        + (∑ k : Fin 32, P2 (ix2 (0 : Fin 1) k) * P5 (ix2 k h)) + P6 (ix2 (0 : Fin 1) h)) 0

/-- The zero the body clips at is the extended real `0`. -/
theorem relu_floor : (FloatOps.ofBits (F := Ideal) .f32 0#32 : EReal) = 0 := Ideal.ofBits_zero_f32

/-- The second product's value at `(p, q)`: the clipped first layer against `P7`. -/
theorem pay2_apply (P0 P1 : Vec Ideal S10000x32 .f32) (P2 : Vec Ideal S1x32 .f32) (P3 P4 P5 : Vec Ideal S32x32 .f32)
    (P6 : Vec Ideal S1x32 .f32) (P7 : Vec Ideal S32x32 .f32) (p : Fin 10000) (q : Fin 32) :
    k0_pay2 (F := Ideal) P0 P1 P2 P3 P4 P5 P6 P7 (ix2 p q) = ∑ h : Fin 32, blockHidden P0 P1 P2 P3 P4 P5 P6 p h * P7 (ix2 h q) := by
  unfold k0_pay2
  rw [blockMatmul_apply]
  refine Finset.sum_congr rfl fun h _ => ?_
  unfold blockHidden
  simp only [truncf_apply, maximumf_apply, addf_apply, broadcast_apply, shapeCast_self, blockMatmul_apply,
    broadcastTo_1b_ab_apply]
  rw [relu_floor]

/-- What the step leaves at row `p`, column `q` of its output block: the second product plus the second bias. -/
theorem E9_apply (P0 P1 : Vec Ideal S10000x32 .f32) (P2 : Vec Ideal S1x32 .f32) (P3 P4 P5 : Vec Ideal S32x32 .f32)
    (P6 : Vec Ideal S1x32 .f32) (P7 : Vec Ideal S32x32 .f32) (P8 : Vec Ideal S1x32 .f32) (p : Fin 10000) (q : Fin 32) :
    Value.E9 (F := Ideal) P0 P1 P2 P3 P4 P5 P6 P7 P8 (ix2 p q)
      = (∑ h : Fin 32, blockHidden P0 P1 P2 P3 P4 P5 P6 p h * P7 (ix2 h q)) + P8 (ix2 (0 : Fin 1) q) := by
  have e0 : Value.ix9_0 (ix2 p q) = ix2 p q := funext fun a => Fin.ext (by
    match a with
    | ⟨0, _⟩ => rfl
    | ⟨1, _⟩ => rfl)
  have e1 : Value.ix9_1 (ix2 p q) = ix2 (0 : Fin 1) q := funext fun a => Fin.ext (by
    match a with
    | ⟨0, _⟩ => rfl
    | ⟨1, _⟩ => rfl)
  show FloatOps.addf (k0_pay2 (F := Ideal) P0 P1 P2 P3 P4 P5 P6 P7 (Value.ix9_0 (ix2 p q))) (P8 (Value.ix9_1 (ix2 p q))) = _
  rw [e0, e1, pay2_apply]
  rfl

/-- When the loaded blocks are: rows `r 0, …, r 9999` of the node features `x` and of the received-edge sums `a`; the
    global row `g`; the three 32-row blocks of `W1`; the bias `b1` as a row; `W2`; the bias `b2` as a row — the step's
    block at `(p, q)` is the layer's result at row `r p`, column `q`. -/
theorem E9_eq_output (x a : Cert.NodeUpdate.Mat 100000 32) (g : Cert.NodeUpdate.Mat 1 32) (W1 : Cert.NodeUpdate.Mat 96 32)
    (b1 : Cert.NodeUpdate.Row 32) (W2 : Cert.NodeUpdate.Mat 32 32) (b2 : Cert.NodeUpdate.Row 32)
    (P0 P1 : Vec Ideal S10000x32 .f32) (P2 : Vec Ideal S1x32 .f32) (P3 P4 P5 : Vec Ideal S32x32 .f32)
    (P6 : Vec Ideal S1x32 .f32) (P7 : Vec Ideal S32x32 .f32) (P8 : Vec Ideal S1x32 .f32)
    (r : Fin 10000 → Fin 100000)
    (h0 : ∀ (p : Fin 10000) (k : Fin 32), P0 (ix2 p k) = x (ix2 (r p) k))
    (h1 : ∀ (p : Fin 10000) (k : Fin 32), P1 (ix2 p k) = a (ix2 (r p) k))
    (h2 : ∀ k : Fin 32, P2 (ix2 (0 : Fin 1) k) = g (ix2 (0 : Fin 1) k))
    (h3 : ∀ k h : Fin 32, P3 (ix2 k h) = W1 (ix2 ⟨0 + k.val, by have := k.isLt; omega⟩ h))
    (h4 : ∀ k h : Fin 32, P4 (ix2 k h) = W1 (ix2 ⟨32 + k.val, by have := k.isLt; omega⟩ h))
    (h5 : ∀ k h : Fin 32, P5 (ix2 k h) = W1 (ix2 ⟨64 + k.val, by have := k.isLt; omega⟩ h))
    (h6 : ∀ h : Fin 32, P6 (ix2 (0 : Fin 1) h) = b1 (ix1 h))
    (h7 : ∀ h q : Fin 32, P7 (ix2 h q) = W2 (ix2 h q))
    (h8 : ∀ q : Fin 32, P8 (ix2 (0 : Fin 1) q) = b2 (ix1 q))
    (p : Fin 10000) (q : Fin 32) :
    Value.E9 (F := Ideal) P0 P1 P2 P3 P4 P5 P6 P7 P8 (ix2 p q)
      = Cert.NodeUpdate.output x a g W1 b1 W2 b2 (ix2 (r p) q) := by
  rw [E9_apply, Cert.NodeUpdate.output_apply]
  unfold blockHidden Cert.NodeUpdate.hidden Cert.NodeUpdate.blockDot
  simp only [h0, h1, h2, h3, h4, h5, h6, h7, h8]

end Cert.KernelIdeal.BlockValue

end
-- ==== Proof.KernelArray.lean ====
/-
  The kernel's result array after the run is the node update of the launch memory.

  Before the grid runs, the host part of the program has formed the received-edge sums (a scatter-add of the edge
  features into a zero array, at the rows the edge-index array's second row names), cut the 96-row first weight into its
  three 32-row blocks, and reshaped the two biases into rows. The grid has ten steps; step `t` loads rows
  `10000 t, …, 10000 t + 9999` of the node features and of the received-edge sums together with the small operands whole,
  and writes back the same rows of the result. So what step `t` writes back is block `t` of `Cert.NodeUpdate.output` of
  the launch arrays (`flushed_eq`), the ten blocks tile the 100000 rows (`cover`), and the array ends as that function
  (`final`, `run`).
-/
import proofs.«164282_j21852793602131_1_alg».proof.Proof.Gen.KernelIdeal.Value
import proofs.«164282_j21852793602131_1_alg».proof.Proof.KernelBlock
import Idealize.ShloMosaic.Lib.StableHlo.Run
import Idealize.ShloMosaic.Lib.ValueLayout
import Idealize.ShloMosaic.PureOps.Ideal

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The arrays the region finds -/

/-- The received-edge sums: the edge features `u` added into a zero [100000, 32] array at the rows named by row 1 of the
    edge-index array `e`. -/
def received (e : (⟨S2x1600000, .i32⟩ : BufTy).Contents (Elt Ideal)) (u : (⟨S1600000x32, .f32⟩ : BufTy).Contents (Elt Ideal)) :
    (⟨S100000x32, .f32⟩ : BufTy).Contents (Elt Ideal) :=
  Host.scatterAdd scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0
      (shapeCast _ (extractStridedSlice S1x1600000 ![1, 0] e slices_S2x1600000_S1x1600000_1_0) shapeCasts_S1x1600000_S1600000))
    u

theorem entry_v4 (c : Dev nD) : (V m c main_v4 : S100000x32.Idx → EReal)
    = received (m ((c : Thread nD τ).loc main_arg1)) (m ((c : Thread nD τ).loc main_arg2)) := by
  dsimp only [Gen.V, Gen.hostOps0]; after_results <;> rfl

attribute [irreducible] received

theorem entry_v5 (c : Dev nD) : (V m c main_v5 : S32x32.Idx → EReal)
    = extractStridedSlice S32x32 ![0, 0] (m ((c : Thread nD τ).loc main_arg4)) slices_S96x32_S32x32_0_0 := by
  dsimp only [Gen.V, Gen.hostOps0]; after_results <;> rfl

theorem entry_v6 (c : Dev nD) : (V m c main_v6 : S32x32.Idx → EReal)
    = extractStridedSlice S32x32 ![32, 0] (m ((c : Thread nD τ).loc main_arg4)) slices_S96x32_S32x32_32_0 := by
  dsimp only [Gen.V, Gen.hostOps0]; after_results <;> rfl

theorem entry_v7 (c : Dev nD) : (V m c main_v7 : S32x32.Idx → EReal)
    = extractStridedSlice S32x32 ![64, 0] (m ((c : Thread nD τ).loc main_arg4)) slices_S96x32_S32x32_64_0 := by
  dsimp only [Gen.V, Gen.hostOps0]; after_results <;> rfl

theorem entry_v8 (c : Dev nD) : (V m c main_v8 : S1x32.Idx → EReal)
    = shapeCast S1x32 (m ((c : Thread nD τ).loc main_arg5)) shapeCasts_S32_S1x32 := by
  dsimp only [Gen.V, Gen.hostOps0]; after_results <;> rfl

theorem entry_v9 (c : Dev nD) : (V m c main_v9 : S1x32.Idx → EReal)
    = shapeCast S1x32 (m ((c : Thread nD τ).loc main_arg7)) shapeCasts_S32_S1x32 := by
  dsimp only [Gen.V, Gen.hostOps0]; after_results <;> rfl

/-- The layer's result as a function of the launch memory. -/
def result (c : Dev nD) : S100000x32.Idx → EReal :=
  Cert.NodeUpdate.output (m ((c : Thread nD τ).loc main_arg0))
    (received (m ((c : Thread nD τ).loc main_arg1)) (m ((c : Thread nD τ).loc main_arg2)))
    (m ((c : Thread nD τ).loc main_arg3)) (m ((c : Thread nD τ).loc main_arg4)) (m ((c : Thread nD τ).loc main_arg5))
    (m ((c : Thread nD τ).loc main_arg6)) (m ((c : Thread nD τ).loc main_arg7))

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem hz : (![0, 0] : Fin 2 → Nat) = fun _ => 0 := funext fun a => by fin_cases a <;> rfl

/-- The array row that row `p` of step `t`'s block is: the blocks are consecutive runs of 10000 rows. -/
def rowAt (t : Fin cfg0.N) (p : Fin 10000) : Fin 100000 :=
  ⟨t.val * 10000 + p.val, by have := p.isLt; have : t.val < 10 := t.isLt; omega⟩

/-! ## The blocks a step loads, at an index -/

/-- Window 0's array as the region finds it. -/
theorem harr0 (c : Dev nD) : V m c (Pipeline.arrRef spec0 (0 : Fin cfg0.W)) = (m ((c : Thread nD τ).loc main_arg0)) := V_main_arg0 m c

/-- Window 0's block at step `t`, of any array `X`, at an index. -/
theorem read_blk0 (t : Fin cfg0.N) (X : S100000x32.Idx → EReal) (p : Fin 10000) (k : Fin 32) :
    ((cfg0.win 0).blk t).view.read (Elt Ideal) X (ix2 p k) = X (ix2 (rowAt t p) k) := by
  have hfacts := idx_facts t
  show X (((cfg0.win 0).blk t).view.emb (ix2 p k)) = _
  exact congrArg X (funext fun a => Fin.ext (by
    match a with
    | ⟨0, _⟩ => show win0_0.index t (0 : Fin 2) * 10000 + 1 * p.val = t.val * 10000 + p.val; omega
    | ⟨1, _⟩ => show win0_0.index t (1 : Fin 2) * 32 + 1 * k.val = k.val; omega))

theorem blk0_apply (c : Dev nD) (t : Fin cfg0.N) (p : Fin 10000) (k : Fin 32) :
    iblk m c 0 t (ix2 p k) = (m ((c : Thread nD τ).loc main_arg0)) (ix2 (rowAt t p) k) := by
  unfold iblk
  rw [harr0]
  exact read_blk0 t _ p k

/-- Window 1's array as the region finds it. -/
theorem harr1 (c : Dev nD) : V m c (Pipeline.arrRef spec0 (1 : Fin cfg0.W)) = received (m ((c : Thread nD τ).loc main_arg1)) (m ((c : Thread nD τ).loc main_arg2)) := entry_v4 m c

/-- Window 1's block at step `t`, of any array `X`, at an index. -/
theorem read_blk1 (t : Fin cfg0.N) (X : S100000x32.Idx → EReal) (p : Fin 10000) (k : Fin 32) :
    ((cfg0.win 1).blk t).view.read (Elt Ideal) X (ix2 p k) = X (ix2 (rowAt t p) k) := by
  have hfacts := idx_facts t
  show X (((cfg0.win 1).blk t).view.emb (ix2 p k)) = _
  exact congrArg X (funext fun a => Fin.ext (by
    match a with
    | ⟨0, _⟩ => show win0_1.index t (0 : Fin 2) * 10000 + 1 * p.val = t.val * 10000 + p.val; omega
    | ⟨1, _⟩ => show win0_1.index t (1 : Fin 2) * 32 + 1 * k.val = k.val; omega))

theorem blk1_apply (c : Dev nD) (t : Fin cfg0.N) (p : Fin 10000) (k : Fin 32) :
    iblk m c 1 t (ix2 p k) = received (m ((c : Thread nD τ).loc main_arg1)) (m ((c : Thread nD τ).loc main_arg2)) (ix2 (rowAt t p) k) := by
  unfold iblk
  rw [harr1]
  exact read_blk1 t _ p k

/-- Window 2's array as the region finds it. -/
theorem harr2 (c : Dev nD) : V m c (Pipeline.arrRef spec0 (2 : Fin cfg0.W)) = (m ((c : Thread nD τ).loc main_arg3)) := V_main_arg3 m c

/-- Window 2's block at step `t`, of any array `X`, at an index. -/
theorem read_blk2 (t : Fin cfg0.N) (X : S1x32.Idx → EReal) (k : Fin 32) :
    ((cfg0.win 2).blk t).view.read (Elt Ideal) X (ix2 (0 : Fin 1) k) = X (ix2 (0 : Fin 1) k) := by
  have hfacts := idx_facts t
  show X (((cfg0.win 2).blk t).view.emb (ix2 (0 : Fin 1) k)) = _
  exact congrArg X (funext fun a => Fin.ext (by
    match a with
    | ⟨0, _⟩ => show win0_2.index t (0 : Fin 2) * 1 + 1 * 0 = 0; omega
    | ⟨1, _⟩ => show win0_2.index t (1 : Fin 2) * 32 + 1 * k.val = k.val; omega))

theorem blk2_apply (c : Dev nD) (t : Fin cfg0.N) (k : Fin 32) :
    iblk m c 2 t (ix2 (0 : Fin 1) k) = (m ((c : Thread nD τ).loc main_arg3)) (ix2 (0 : Fin 1) k) := by
  unfold iblk
  rw [harr2]
  exact read_blk2 t _ k

/-- Window 3's array as the region finds it. -/
theorem harr3 (c : Dev nD) : V m c (Pipeline.arrRef spec0 (3 : Fin cfg0.W)) = extractStridedSlice S32x32 ![0, 0] (m ((c : Thread nD τ).loc main_arg4)) slices_S96x32_S32x32_0_0 := entry_v5 m c

/-- Window 3's block at step `t`, of any array `X`, at an index. -/
theorem read_blk3 (t : Fin cfg0.N) (X : S32x32.Idx → EReal) (k h : Fin 32) :
    ((cfg0.win 3).blk t).view.read (Elt Ideal) X (ix2 k h) = X (ix2 k h) := by
  have hfacts := idx_facts t
  show X (((cfg0.win 3).blk t).view.emb (ix2 k h)) = _
  exact congrArg X (funext fun a => Fin.ext (by
    match a with
    | ⟨0, _⟩ => show win0_3.index t (0 : Fin 2) * 32 + 1 * k.val = k.val; omega
    | ⟨1, _⟩ => show win0_3.index t (1 : Fin 2) * 32 + 1 * h.val = h.val; omega))

theorem blk3_apply (c : Dev nD) (t : Fin cfg0.N) (k h : Fin 32) :
    iblk m c 3 t (ix2 k h) = (m ((c : Thread nD τ).loc main_arg4)) (ix2 ⟨0 + k.val, by have := k.isLt; omega⟩ h) := by
  unfold iblk
  rw [harr3]
  exact (read_blk3 t _ k h).trans (slice2_axis0_apply 0 _ slices_S96x32_S32x32_0_0 k h ⟨0 + k.val, by have := k.isLt; omega⟩ rfl)

/-- Window 4's array as the region finds it. -/
theorem harr4 (c : Dev nD) : V m c (Pipeline.arrRef spec0 (4 : Fin cfg0.W)) = extractStridedSlice S32x32 ![32, 0] (m ((c : Thread nD τ).loc main_arg4)) slices_S96x32_S32x32_32_0 := entry_v6 m c

/-- Window 4's block at step `t`, of any array `X`, at an index. -/
theorem read_blk4 (t : Fin cfg0.N) (X : S32x32.Idx → EReal) (k h : Fin 32) :
    ((cfg0.win 4).blk t).view.read (Elt Ideal) X (ix2 k h) = X (ix2 k h) := by
  have hfacts := idx_facts t
  show X (((cfg0.win 4).blk t).view.emb (ix2 k h)) = _
  exact congrArg X (funext fun a => Fin.ext (by
    match a with
    | ⟨0, _⟩ => show win0_4.index t (0 : Fin 2) * 32 + 1 * k.val = k.val; omega
    | ⟨1, _⟩ => show win0_4.index t (1 : Fin 2) * 32 + 1 * h.val = h.val; omega))

theorem blk4_apply (c : Dev nD) (t : Fin cfg0.N) (k h : Fin 32) :
    iblk m c 4 t (ix2 k h) = (m ((c : Thread nD τ).loc main_arg4)) (ix2 ⟨32 + k.val, by have := k.isLt; omega⟩ h) := by
  unfold iblk
  rw [harr4]
  exact (read_blk4 t _ k h).trans (slice2_axis0_apply 32 _ slices_S96x32_S32x32_32_0 k h ⟨32 + k.val, by have := k.isLt; omega⟩ rfl)

/-- Window 5's array as the region finds it. -/
theorem harr5 (c : Dev nD) : V m c (Pipeline.arrRef spec0 (5 : Fin cfg0.W)) = extractStridedSlice S32x32 ![64, 0] (m ((c : Thread nD τ).loc main_arg4)) slices_S96x32_S32x32_64_0 := entry_v7 m c

/-- Window 5's block at step `t`, of any array `X`, at an index. -/
theorem read_blk5 (t : Fin cfg0.N) (X : S32x32.Idx → EReal) (k h : Fin 32) :
    ((cfg0.win 5).blk t).view.read (Elt Ideal) X (ix2 k h) = X (ix2 k h) := by
  have hfacts := idx_facts t
  show X (((cfg0.win 5).blk t).view.emb (ix2 k h)) = _
  exact congrArg X (funext fun a => Fin.ext (by
    match a with
    | ⟨0, _⟩ => show win0_5.index t (0 : Fin 2) * 32 + 1 * k.val = k.val; omega
    | ⟨1, _⟩ => show win0_5.index t (1 : Fin 2) * 32 + 1 * h.val = h.val; omega))

theorem blk5_apply (c : Dev nD) (t : Fin cfg0.N) (k h : Fin 32) :
    iblk m c 5 t (ix2 k h) = (m ((c : Thread nD τ).loc main_arg4)) (ix2 ⟨64 + k.val, by have := k.isLt; omega⟩ h) := by
  unfold iblk
  rw [harr5]
  exact (read_blk5 t _ k h).trans (slice2_axis0_apply 64 _ slices_S96x32_S32x32_64_0 k h ⟨64 + k.val, by have := k.isLt; omega⟩ rfl)

/-- Window 6's array as the region finds it. -/
theorem harr6 (c : Dev nD) : V m c (Pipeline.arrRef spec0 (6 : Fin cfg0.W)) = shapeCast S1x32 (m ((c : Thread nD τ).loc main_arg5)) shapeCasts_S32_S1x32 := entry_v8 m c

/-- Window 6's block at step `t`, of any array `X`, at an index. -/
theorem read_blk6 (t : Fin cfg0.N) (X : S1x32.Idx → EReal) (h : Fin 32) :
    ((cfg0.win 6).blk t).view.read (Elt Ideal) X (ix2 (0 : Fin 1) h) = X (ix2 (0 : Fin 1) h) := by
  have hfacts := idx_facts t
  show X (((cfg0.win 6).blk t).view.emb (ix2 (0 : Fin 1) h)) = _
  exact congrArg X (funext fun a => Fin.ext (by
    match a with
    | ⟨0, _⟩ => show win0_6.index t (0 : Fin 2) * 1 + 1 * 0 = 0; omega
    | ⟨1, _⟩ => show win0_6.index t (1 : Fin 2) * 32 + 1 * h.val = h.val; omega))

theorem blk6_apply (c : Dev nD) (t : Fin cfg0.N) (h : Fin 32) :
    iblk m c 6 t (ix2 (0 : Fin 1) h) = (m ((c : Thread nD τ).loc main_arg5)) (ix1 h) := by
  unfold iblk
  rw [harr6]
  exact (read_blk6 t _ h).trans (shapeCast_a_1a_apply _ shapeCasts_S32_S1x32 0 h)

/-- Window 7's array as the region finds it. -/
theorem harr7 (c : Dev nD) : V m c (Pipeline.arrRef spec0 (7 : Fin cfg0.W)) = (m ((c : Thread nD τ).loc main_arg6)) := V_main_arg6 m c

/-- Window 7's block at step `t`, of any array `X`, at an index. -/
theorem read_blk7 (t : Fin cfg0.N) (X : S32x32.Idx → EReal) (h q : Fin 32) :
    ((cfg0.win 7).blk t).view.read (Elt Ideal) X (ix2 h q) = X (ix2 h q) := by
  have hfacts := idx_facts t
  show X (((cfg0.win 7).blk t).view.emb (ix2 h q)) = _
  exact congrArg X (funext fun a => Fin.ext (by
    match a with
    | ⟨0, _⟩ => show win0_7.index t (0 : Fin 2) * 32 + 1 * h.val = h.val; omega
    | ⟨1, _⟩ => show win0_7.index t (1 : Fin 2) * 32 + 1 * q.val = q.val; omega))

theorem blk7_apply (c : Dev nD) (t : Fin cfg0.N) (h q : Fin 32) :
    iblk m c 7 t (ix2 h q) = (m ((c : Thread nD τ).loc main_arg6)) (ix2 h q) := by
  unfold iblk
  rw [harr7]
  exact read_blk7 t _ h q

/-- Window 8's array as the region finds it. -/
theorem harr8 (c : Dev nD) : V m c (Pipeline.arrRef spec0 (8 : Fin cfg0.W)) = shapeCast S1x32 (m ((c : Thread nD τ).loc main_arg7)) shapeCasts_S32_S1x32 := entry_v9 m c

/-- Window 8's block at step `t`, of any array `X`, at an index. -/
theorem read_blk8 (t : Fin cfg0.N) (X : S1x32.Idx → EReal) (q : Fin 32) :
    ((cfg0.win 8).blk t).view.read (Elt Ideal) X (ix2 (0 : Fin 1) q) = X (ix2 (0 : Fin 1) q) := by
  have hfacts := idx_facts t
  show X (((cfg0.win 8).blk t).view.emb (ix2 (0 : Fin 1) q)) = _
  exact congrArg X (funext fun a => Fin.ext (by
    match a with
    | ⟨0, _⟩ => show win0_8.index t (0 : Fin 2) * 1 + 1 * 0 = 0; omega
    | ⟨1, _⟩ => show win0_8.index t (1 : Fin 2) * 32 + 1 * q.val = q.val; omega))

theorem blk8_apply (c : Dev nD) (t : Fin cfg0.N) (q : Fin 32) :
    iblk m c 8 t (ix2 (0 : Fin 1) q) = (m ((c : Thread nD τ).loc main_arg7)) (ix1 q) := by
  unfold iblk
  rw [harr8]
  exact (read_blk8 t _ q).trans (shapeCast_a_1a_apply _ shapeCasts_S32_S1x32 0 q)

/-! ## What a step writes back, and the whole array -/

/-- The output window's block at step `t`, of any array `X`, at the block index with coordinates `(p, q)`. -/
theorem read_blk9 (t : Fin cfg0.N) (X : S100000x32.Idx → EReal) (j : ((cfg0.win 9).xblock (grid0.coords t)).Idx)
    (p : Fin 10000) (q : Fin 32) (hp : (j 0).val = p.val) (hq : (j 1).val = q.val) :
    ((cfg0.win 9).blk t).view.read (Elt Ideal) X j = X (ix2 (rowAt t p) q) := by
  have hfacts := idx_facts t
  show X (((cfg0.win 9).blk t).view.emb j) = _
  exact congrArg X (funext fun a => Fin.ext (by
    match a with
    | ⟨0, _⟩ => show win0_9.index t (0 : Fin 2) * 10000 + 1 * (j 0).val = t.val * 10000 + p.val; omega
    | ⟨1, _⟩ => show win0_9.index t (1 : Fin 2) * 32 + 1 * (j 1).val = q.val; omega))

/-- Grid step `t` writes back rows `10000 t, …, 10000 t + 9999` of the layer's result. -/
theorem flushed_eq (c : Dev nD) (t : Fin cfg0.N) :
    (dats m 0 c).flushed 9 t = ((cfg0.win 9).blk t).view.read (Elt Ideal) (result m c) := by
  rw [Value.flushed9]
  unfold out0_9
  funext j
  dsimp only [Pipeline.Window.cut]
  rw [Value.canon9_eq]
  simp only [View.ld_unit_zero (S := S10000x32) hz, View.ld_unit_zero (S := S1x32) hz, View.ld_unit_zero (S := S32x32) hz]
  obtain ⟨p, q, hpq⟩ : ∃ (p : Fin 10000) (q : Fin 32), (win0 9).xinj (grid0.coords t) j = ix2 p q := ⟨_, _, eq_ix2 _⟩
  have hp : (j 0).val = p.val := congrArg Fin.val (congrFun hpq 0)
  have hq : (j 1).val = q.val := congrArg Fin.val (congrFun hpq 1)
  rw [hpq]
  unfold result
  exact (BlockValue.E9_eq_output (m ((c : Thread nD τ).loc main_arg0))
    (received (m ((c : Thread nD τ).loc main_arg1)) (m ((c : Thread nD τ).loc main_arg2)))
    (m ((c : Thread nD τ).loc main_arg3)) (m ((c : Thread nD τ).loc main_arg4)) (m ((c : Thread nD τ).loc main_arg5))
    (m ((c : Thread nD τ).loc main_arg6)) (m ((c : Thread nD τ).loc main_arg7))
    (iblk m c 0 t) (iblk m c 1 t) (iblk m c 2 t) (iblk m c 3 t) (iblk m c 4 t) (iblk m c 5 t) (iblk m c 6 t) (iblk m c 7 t) (iblk m c 8 t)
    (rowAt t)
    (blk0_apply m c t) (blk1_apply m c t) (blk2_apply m c t) (blk3_apply m c t) (blk4_apply m c t) (blk5_apply m c t)
    (blk6_apply m c t) (blk7_apply m c t) (blk8_apply m c t) p q).trans (read_blk9 t _ j p q hp hq).symm

/-- An index of the result array is in step `t`'s block iff each coordinate is in the block's range on its axis. -/
theorem mem_blk (t : Fin cfg0.N) (i : S100000x32.Idx) :
    i ∈ ((cfg0.win 9).blk t).view.set ↔ ∀ a : Fin 2, win0_9.index t a * S10000x32.size a ≤ (i a).val ∧ (i a).val < win0_9.index t a * S10000x32.size a + S10000x32.size a := by
  show i ∈ ((View.whole main_v10).slice (win0_9.rect t)).set ↔ _
  rw [View.set_slice_whole, Rect.mem_set_unit]
  exact Iff.rfl

/-- Row `r` of the result is written by step `r / 10000`: the ten blocks of 10000 rows tile the 100000 rows. -/
theorem cover (i : S100000x32.Idx) :
    ∃ t : Fin cfg0.N, (cfg0.win 9).flush t = true ∧ i ∈ ((cfg0.win 9).blk t).view.set := by
  have hi0 : (i 0).val < 100000 := (i 0).isLt
  have hi1 : (i 1).val < 32 := (i 1).isLt
  have hlt : (i 0).val / 10000 < 10 := by omega
  refine ⟨⟨(i 0).val / 10000, hlt⟩, flush0_9 _, ?_⟩
  rw [mem_blk]
  have hfacts := idx_facts ⟨(i 0).val / 10000, hlt⟩
  have e0 : win0_9.index ⟨(i 0).val / 10000, hlt⟩ (0 : Fin 2) = (i 0).val / 10000 := hfacts.2.2.2.2.2.2.2.2.2.2.2.2.2.2.2.2.2.2.1
  have e1 : win0_9.index ⟨(i 0).val / 10000, hlt⟩ (1 : Fin 2) = 0 := hfacts.2.2.2.2.2.2.2.2.2.2.2.2.2.2.2.2.2.2.2
  intro a
  match a with
  | ⟨0, _⟩ =>
    show win0_9.index ⟨(i 0).val / 10000, hlt⟩ (0 : Fin 2) * 10000 ≤ (i 0).val ∧ (i 0).val < win0_9.index ⟨(i 0).val / 10000, hlt⟩ (0 : Fin 2) * 10000 + 10000
    omega
  | ⟨1, _⟩ =>
    show win0_9.index ⟨(i 0).val / 10000, hlt⟩ (1 : Fin 2) * 32 ≤ (i 1).val ∧ (i 1).val < win0_9.index ⟨(i 0).val / 10000, hlt⟩ (1 : Fin 2) * 32 + 32
    omega

/-- The result array after the run is the layer's result. -/
theorem final (c : Dev nD) : (dats m 0 c).arrAt 9 cfg0.N = result m c :=
  (dats m 0 c).arrAt_eq_of_cover 9 (result m c) (fun t _ => flushed_eq m c t) cover

/-- Every weakly fair execution of the kernel's program terminates with the result array holding the layer's result of
    the launch memory, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.ArrayValue

end
-- ==== Proof.RefValue.lean ====
/-
  The reference's result, index by index, is the node update `Cert.NodeUpdate.output`.

  The reference forms the received-edge sums by a scatter-add, broadcasts the global row over the nodes, joins the
  node features, the sums and the broadcast row into one 96-wide row per node, and contracts that row with the whole
  96 × 32 weight. Columns `0–31`, `32–63`, `64–95` of the joined row are the three pieces' (`cat0`, `cat1`, `cat2`), so the
  96-term sum is the sum of the three 32-term block sums (`Cert.NodeUpdate.sum96_split`): `hidden_eq`. The second layer is
  one more contraction and a bias: `output_eq`. The scatter-add is kept whole, as the reference's own stage.
-/
import proofs.«164282_j21852793602131_1_alg».proof.Proof.Gen.ReferenceIdeal.Read
import proofs.«164282_j21852793602131_1_alg».proof.Proof.Spec
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx
open Cert.NodeUpdate

/-! ## The concatenated feature row, block by block -/

section Cat
variable (u0 u1 u2 : S100000x32.Idx → EReal)

/-- Columns 0–31 of the concatenated row are the first piece's. -/
theorem cat_apply0 (n : Fin 100000) (k : Fin 32) :
    concatenate S100000x96 1 [⟨S100000x32, u0⟩, ⟨S100000x32, u1⟩, ⟨S100000x32, u2⟩]
        concatenates_S100000x32_S100000x32_S100000x32_S100000x96_d1 (ix2 n ⟨0 + k.val, by have := k.isLt; omega⟩)
      = u0 (ix2 n k) :=
  concatenate_apply_piece (1 : Fin S100000x96.rank) [⟨S100000x32, u0⟩, ⟨S100000x32, u1⟩, ⟨S100000x32, u2⟩]
    concatenates_S100000x32_S100000x32_S100000x32_S100000x96_d1 _ 0 (by simp) S100000x32 u0 rfl rfl 0 rfl (ix2 n k)
    (fun b hb => by
      match b with
      | ⟨0, _⟩ => rfl
      | ⟨1, _⟩ => exact absurd rfl hb)
    rfl

/-- Columns 32–63 are the second piece's. -/
theorem cat_apply1 (n : Fin 100000) (k : Fin 32) :
    concatenate S100000x96 1 [⟨S100000x32, u0⟩, ⟨S100000x32, u1⟩, ⟨S100000x32, u2⟩]
        concatenates_S100000x32_S100000x32_S100000x32_S100000x96_d1 (ix2 n ⟨32 + k.val, by have := k.isLt; omega⟩)
      = u1 (ix2 n k) :=
  concatenate_apply_piece (1 : Fin S100000x96.rank) [⟨S100000x32, u0⟩, ⟨S100000x32, u1⟩, ⟨S100000x32, u2⟩]
    concatenates_S100000x32_S100000x32_S100000x32_S100000x96_d1 _ 1 (by simp) S100000x32 u1 rfl rfl 32 rfl (ix2 n k)
    (fun b hb => by
      match b with
      | ⟨0, _⟩ => rfl
      | ⟨1, _⟩ => exact absurd rfl hb)
    rfl

/-- Columns 64–95 are the third piece's. -/
theorem cat_apply2 (n : Fin 100000) (k : Fin 32) :
    concatenate S100000x96 1 [⟨S100000x32, u0⟩, ⟨S100000x32, u1⟩, ⟨S100000x32, u2⟩]
        concatenates_S100000x32_S100000x32_S100000x32_S100000x96_d1 (ix2 n ⟨64 + k.val, by have := k.isLt; omega⟩)
      = u2 (ix2 n k) :=
  concatenate_apply_piece (1 : Fin S100000x96.rank) [⟨S100000x32, u0⟩, ⟨S100000x32, u1⟩, ⟨S100000x32, u2⟩]
    concatenates_S100000x32_S100000x32_S100000x32_S100000x96_d1 _ 2 (by simp) S100000x32 u2 rfl rfl 64 rfl (ix2 n k)
    (fun b hb => by
      match b with
      | ⟨0, _⟩ => rfl
      | ⟨1, _⟩ => exact absurd rfl hb)
    rfl

end Cat

section
variable (x0 : (⟨S100000x32, .f32⟩ : BufTy).Contents (Elt Ideal)) (x1 : (⟨S2x1600000, .i32⟩ : BufTy).Contents (Elt Ideal))
  (x2 : (⟨S1600000x32, .f32⟩ : BufTy).Contents (Elt Ideal)) (x3 : (⟨S1x32, .f32⟩ : BufTy).Contents (Elt Ideal))
  (x4 : (⟨S96x32, .f32⟩ : BufTy).Contents (Elt Ideal)) (x5 : (⟨S32, .f32⟩ : BufTy).Contents (Elt Ideal))
  (x6 : (⟨S32x32, .f32⟩ : BufTy).Contents (Elt Ideal)) (x7 : (⟨S32, .f32⟩ : BufTy).Contents (Elt Ideal))

/-! ## The reference's index functions at `(n, ·)` -/

theorem lidx7 (n : Fin 100000) (h : Fin 32) (k : Fin 96) : lidx_main_v7 (ix2 n h) k = ix2 n k :=
  funext fun a => Fin.ext (by
    match a with
    | ⟨0, _⟩ => rfl
    | ⟨1, _⟩ => rfl)
theorem ridx7 (n : Fin 100000) (h : Fin 32) (k : Fin 96) : ridx_main_v7 (ix2 n h) k = ix2 k h :=
  funext fun a => Fin.ext (by
    match a with
    | ⟨0, _⟩ => rfl
    | ⟨1, _⟩ => rfl)
theorem lidx12 (n : Fin 100000) (q : Fin 32) (h : Fin 32) : lidx_main_v12 (ix2 n q) h = ix2 n h :=
  funext fun a => Fin.ext (by
    match a with
    | ⟨0, _⟩ => rfl
    | ⟨1, _⟩ => rfl)
theorem ridx12 (n : Fin 100000) (q : Fin 32) (h : Fin 32) : ridx_main_v12 (ix2 n q) h = ix2 h q :=
  funext fun a => Fin.ext (by
    match a with
    | ⟨0, _⟩ => rfl
    | ⟨1, _⟩ => rfl)
theorem bias1_idx (n : Fin 100000) (h : Fin 32) : idx_main_v8 (idx_main_v9 (ix2 n h)) = ix1 h :=
  funext fun a => Fin.ext (by
    match a with
    | ⟨0, _⟩ => rfl)
theorem bias2_idx (n : Fin 100000) (q : Fin 32) : idx_main_v13 (idx_main_v14 (ix2 n q)) = ix1 q :=
  funext fun a => Fin.ext (by
    match a with
    | ⟨0, _⟩ => rfl)
theorem glob_idx (n : Fin 100000) (k : Fin 32) : idx_main_v5 (ix2 n k) = ix2 (0 : Fin 1) k :=
  funext fun a => Fin.ext (by
    match a with
    | ⟨0, _⟩ => rfl
    | ⟨1, _⟩ => rfl)

/-! ## The concatenated row of the reference, run by run -/

theorem cat0 (n : Fin 100000) (k : Fin 32) :
    val_main_v6 (F := Ideal) x0 x1 x2 x3 (ix2 n ⟨0 + k.val, by have := k.isLt; omega⟩) = x0 (ix2 n k) := by
  unfold val_main_v6
  exact cat_apply0 x0 (val_main_v4 (F := Ideal) x1 x2) (val_main_v5 (F := Ideal) x3) n k

theorem cat1 (n : Fin 100000) (k : Fin 32) :
    val_main_v6 (F := Ideal) x0 x1 x2 x3 (ix2 n ⟨32 + k.val, by have := k.isLt; omega⟩) = val_main_v4 (F := Ideal) x1 x2 (ix2 n k) := by
  unfold val_main_v6
  exact cat_apply1 x0 (val_main_v4 (F := Ideal) x1 x2) (val_main_v5 (F := Ideal) x3) n k

theorem cat2 (n : Fin 100000) (k : Fin 32) :
    val_main_v6 (F := Ideal) x0 x1 x2 x3 (ix2 n ⟨64 + k.val, by have := k.isLt; omega⟩) = x3 (ix2 (0 : Fin 1) k) := by
  unfold val_main_v6
  rw [cat_apply2 x0 (val_main_v4 (F := Ideal) x1 x2) (val_main_v5 (F := Ideal) x3) n k, val_main_v5_apply, glob_idx]

/-! ## The hidden layer and the result -/

/-- The reference's clipped first layer at `(n, h)`: its 96-term sum against the concatenated row splits into the three
    32-term blocks. -/
theorem hidden_eq (n : Fin 100000) (h : Fin 32) :
    val_main_v11 (F := Ideal) x0 x1 x2 x3 x4 x5 (ix2 n h) = hidden x0 (val_main_v4 (F := Ideal) x1 x2) x3 x4 x5 n h := by
  rw [val_main_v11_apply, val_main_v10_apply, val_main_v7_apply, val_main_call0_v0_apply, val_main_call0_cst_apply,
    val_main_v9_apply, val_main_v8_apply, sum96_split]
  simp only [lidx7, ridx7, bias1_idx, cat0, cat1, cat2]
  unfold Cert.NodeUpdate.hidden Cert.NodeUpdate.blockDot
  rw [zero_word]
  rfl

/-- The reference's result is the node update of its arguments, the received-edge sums being its own scatter-add. -/
theorem output_eq :
    val_main_v15 (F := Ideal) x0 x1 x2 x3 x4 x5 x6 x7 = output x0 (val_main_v4 (F := Ideal) x1 x2) x3 x4 x5 x6 x7 := by
  funext j
  obtain ⟨n, q, rfl⟩ : ∃ (n : Fin 100000) (q : Fin 32), j = ix2 n q := ⟨j 0, j 1, eq_ix2 j⟩
  rw [output_apply, val_main_v15_apply, val_main_v12_apply, val_main_v14_apply, val_main_v13_apply]
  simp only [lidx12, ridx12, bias2_idx, hidden_eq]
  rfl

end

end Cert.ReferenceIdeal.RefValue

end
-- ==== Proof.lean ====
/-
  A node update of a message-passing layer, as a tiled accelerator kernel and as a plain array program: equal over the
  extended reals.

  Both programs first add each edge's 32 features into the row of the node that receives it (a scatter-add into a zero
  [100000, 32] array; the same host operations in both). The reference then joins each node's own features, its received
  sum and the global features into a 96-wide row, applies a 96 × 32 linear map and a bias, clips at zero, and applies a
  32 × 32 linear map and a bias. The kernel never joins the rows: it cuts the 96-row weight into three 32-row blocks on
  the host and, for ten blocks of 10000 nodes, adds the three 32-wide products (own features, received sum, global row)
  before the bias and the clip, then applies the second map. Its changes of float format are the identity on extended
  reals, and a product into a zero accumulator is the plain sum.

  The one law between them: a 96-term sum is the sum of its three consecutive 32-term runs (Proof/Spec.lean
  `sum96_split`), which holds in any commutative monoid, so the precondition's finiteness is never used. The kernel's
  array after the run is `Cert.NodeUpdate.output` of the launch arrays (Proof/KernelBlock.lean: one step's block at an
  index; Proof/KernelArray.lean: the arrays the region finds, what a step writes back, the ten blocks tiling the rows);
  the reference's term is the same function (Proof/RefValue.lean); the two scatter-adds are one term (`received_eq`).
  The frames of the two kernel programs are the generated ones; the reference's frame is its run with the result dropped;
  the idealization rewrote nothing, so `preserves` is trivial.
-/
import proofs.«164282_j21852793602131_1_alg».proof.Defs
import proofs.«164282_j21852793602131_1_alg».proof.Proof.Gen.Kernel
import proofs.«164282_j21852793602131_1_alg».proof.Proof.Gen.Kernel.Skeleton
import proofs.«164282_j21852793602131_1_alg».proof.Proof.Gen.Kernel.Launch
import proofs.«164282_j21852793602131_1_alg».proof.Proof.Gen.Kernel.Points
import proofs.«164282_j21852793602131_1_alg».proof.Proof.Gen.Kernel.Frame
import proofs.«164282_j21852793602131_1_alg».proof.Proof.Gen.KernelIdeal
import proofs.«164282_j21852793602131_1_alg».proof.Proof.Gen.KernelIdeal.Skeleton
import proofs.«164282_j21852793602131_1_alg».proof.Proof.Gen.KernelIdeal.Launch
import proofs.«164282_j21852793602131_1_alg».proof.Proof.Gen.KernelIdeal.Points
import proofs.«164282_j21852793602131_1_alg».proof.Proof.Gen.KernelIdeal.Frame
import proofs.«164282_j21852793602131_1_alg».proof.Proof.Gen.ReferenceIdeal
import proofs.«164282_j21852793602131_1_alg».proof.Proof.Gen.Pre_finite_inputs
import proofs.«164282_j21852793602131_1_alg».proof.Proof.Gen.KernelIdeal.Value
import proofs.«164282_j21852793602131_1_alg».proof.Proof.Gen.ReferenceIdeal.Run
import proofs.«164282_j21852793602131_1_alg».proof.Proof.Gen.ReferenceIdeal.Read
import proofs.«164282_j21852793602131_1_alg».proof.Proof.KernelArray
import proofs.«164282_j21852793602131_1_alg».proof.Proof.RefValue
import Idealize.ShloMosaic.Adequacy
import Idealize.ShloMosaic.Init

noncomputable section

namespace Cert.Proof

open Idealize.ShloMosaic Idealize.SL.Sem

/-- A scatter-add depends only on its dimension record, its operand, its indices and its updates. -/
theorem scatterAdd_congr {s si u : Shape} {w : Nat} {φ : FTy} (d d' : ScatterDims s si u) (hd : d = d')
    (x x' : FVec Ideal s φ) (hx : x = x') (i i' : IVec si w) (hi : i = i') (upd : FVec Ideal u φ) :
    Host.scatterAdd d x i upd = Host.scatterAdd d' x' i' upd := by
  subst hd hx hi; rfl

/-- The kernel's and the reference's received-edge sums are one function of the edge arrays: both programs form them by
    the same host operations (row 1 of the edge-index array as a column of row numbers; the edge features added into a
    zero array at those rows). -/
theorem received_eq (e : (⟨Cert.KernelIdeal.S2x1600000, .i32⟩ : BufTy).Contents (Elt Ideal))
    (u : (⟨Cert.KernelIdeal.S1600000x32, .f32⟩ : BufTy).Contents (Elt Ideal)) :
    Cert.KernelIdeal.ArrayValue.received e u = Cert.ReferenceIdeal.Read.val_main_v4 (F := Ideal) e u := by
  unfold Cert.KernelIdeal.ArrayValue.received Cert.ReferenceIdeal.Read.val_main_v4
  exact scatterAdd_congr _ _ rfl _ _ rfl _ _ rfl u

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the node update of those arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v15_eq, Cert.ReferenceIdeal.RefValue.output_eq, a0, a1, a2, a3, a4, a5, a6, a7]
  unfold Cert.KernelIdeal.ArrayValue.result
  simp only [received_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
